-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S1024x1024 .f32) (main_arg6 : FVec F S1024x1024 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x8192x1024 .f32) (main_arg1 : FVec F S1024x1024 .f32) (main_arg2 : FVec F S1024 .f32) (main_arg3 : FVec F S16x1024 .f32) (main_arg4 : FVec F S1024x16 .f32) (main_arg5 : FVec F S1024x1024 .f32) (main_arg6 : FVec F S1024x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S32768x1024 : Shape := ⟨2, ![32768, 1024]⟩
abbrev S1x1024 : Shape := ⟨2, ![1, 1024]⟩

abbrev nBuf : Space → Nat
  | .hbm => 21
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S1024x1024, .f32⟩
  | .hbm, ⟨6, _⟩ => ⟨S1024x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x16, .f32⟩
  | .hbm, ⟨15, _⟩ => ⟨S1024x16, .bf16⟩
  | .hbm, ⟨16, _⟩ => ⟨S16x1024, .f32⟩
  | .hbm, ⟨17, _⟩ => ⟨S16x1024, .bf16⟩
  | .hbm, ⟨18, _⟩ => ⟨S1x1024, .f32⟩
  | .hbm, ⟨19, _⟩ => ⟨S32768x1024, .f32⟩
  | .hbm, ⟨20, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x16, .bf16⟩
  | .local _ .vmem, ⟨5, _⟩ => ⟨S16x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x8192x1024_S32768x1024 : S4x8192x1024.ShapeCasts S32768x1024
  transposes_S1024x1024_S1024x1024_1_0 : S1024x1024.Transposes [1, 0] S1024x1024
  bitsLt_bf16_f32 : FTy.bits .bf16 < FTy.bits .f32
  transposes_S16x1024_S1024x16_1_0 : S16x1024.Transposes [1, 0] S1024x16
  transposes_S1024x16_S16x1024_1_0 : S1024x16.Transposes [1, 0] S16x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S32768x1024_S4x8192x1024 : S32768x1024.ShapeCasts S4x8192x1024
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .bf16 = 32 ∨ (Rect.block (s := S1024x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .bf16 = 32 ∨ (Rect.block (s := S16x1024) S16x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S32768x1024.size a
  hwx0_7 : ∀ i : grid0.Coords, EltTy.bits .f32 = 32 ∨ (Rect.block (s := S32768x1024) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1x1024 : Shape := ⟨3, ![1, 1, 1024]⟩
abbrev S4x8192x16 : Shape := ⟨3, ![4, 8192, 16]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S1024x1024, .f32⟩
  | .hbm, ⟨6, _⟩ => ⟨S1024x1024, .f32⟩
  | .hbm, ⟨7, _⟩ => ⟨S4x8192x1024, .f32⟩
  | .hbm, ⟨8, _⟩ => ⟨S1x1x1024, .f32⟩
  | .hbm, ⟨9, _⟩ => ⟨S4x8192x1024, .f32⟩
  | .hbm, ⟨10, _⟩ => ⟨S4x8192x1024, .f32⟩
  | .hbm, ⟨11, _⟩ => ⟨S4x8192x16, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []
  dot_S4x8192x1024_S16x1024_S4x8192x16_2_1_01_0_n_n_wf : DotDims.WF S4x8192x1024 S16x1024 S4x8192x16 [2] [1] [0, 1] [0] [] []
  dot_S4x8192x16_S1024x16_S4x8192x1024_2_1_01_0_n_n_wf : DotDims.WF S4x8192x16 S1024x16 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x1024_S16x1024_S4x8192x16_2_1_01_0_n_n : DotDims S4x8192x1024 S16x1024 S4x8192x16 where
  lhsContracting := [2]
  rhsContracting := [1]
  lhsNonContracting := [0, 1]
  rhsNonContracting := [0]
  lhsBatch := []
  rhsBatch := []
  wf := dot_S4x8192x1024_S16x1024_S4x8192x16_2_1_01_0_n_n_wf
def dot_S4x8192x16_S1024x16_S4x8192x1024_2_1_01_0_n_n : DotDims S4x8192x16 S1024x16 S4x8192x1024 where
  lhsContracting := [2]
  rhsContracting := [1]
  lhsNonContracting := [0, 1]
  rhsNonContracting := [0]
  lhsBatch := []
  rhsBatch := []
  wf := dot_S4x8192x16_S1024x16_S4x8192x1024_2_1_01_0_n_n_wf

class Facts : Prop extends Facts₀ where

variable [Facts]
-- ==== Proof.Spec.lean ====
/-
  The function both programs compute, stated once over the extended reals.

  For a row `x` of 1024 inputs and one output feature with base weights `w`, bias `β`, gate weights `wg`,
  residual weights `wr`, and the low-rank pair (`wd j` the j-th of 16 down-projection rows, `wu j` the j-th
  up-projection coefficient of this feature), the output element is

      (x·w + β)  +  σ(x·wg) · ((Σ_j (x·wd j) · wu j) · 2)  +  x·wr

  with σ the logistic function `1 / (1 + e^(-z))` on the extended reals, every dot product a finite sum in the
  order of the feature index, and the additions associated exactly as written (left to right).  The factor 2 is kept
  as the word both programs print for it; nothing below needs its value.

  `layer` is that element at every (batch, position, feature) index of a [4, 8192, 1024] result, from the argument
  arrays in the layout the caller passes them: weights as (out, in) matrices, the down projection as (16, in), the up
  projection as (out, 16).
-/
import Idealize.ShloMosaic.PureOps.Ideal
import Idealize.ShloMosaic.Lib.ValueIdx

noncomputable section

open scoped BigOperators

namespace Cert.Spec

open Idealize.ShloMosaic Idealize.ShloMosaic.ValueIdx

/-- One output element from a row of inputs and the weights of one output feature. -/
def elem (x w : Fin 1024 → EReal) (β : EReal) (wd : Fin 16 → Fin 1024 → EReal) (wu : Fin 16 → EReal)
    (wg wr : Fin 1024 → EReal) : EReal :=
  ((∑ k, x k * w k) + β)
    + Ideal.logistic (∑ k, x k * wg k) * ((∑ j, (∑ k, x k * wd j k) * wu j) * Ideal.ofBits .f32 0x40000000#32)
    + ∑ k, x k * wr k

/-- The whole result: `elem` at every (batch, position, feature). -/
def layer (x : (⟨3, ![4, 8192, 1024]⟩ : Shape).Idx → EReal) (W : (⟨2, ![1024, 1024]⟩ : Shape).Idx → EReal)
    (b : (⟨1, ![1024]⟩ : Shape).Idx → EReal) (Wd : (⟨2, ![16, 1024]⟩ : Shape).Idx → EReal)
    (Wu : (⟨2, ![1024, 16]⟩ : Shape).Idx → EReal) (Wg Wr : (⟨2, ![1024, 1024]⟩ : Shape).Idx → EReal) :
    (⟨3, ![4, 8192, 1024]⟩ : Shape).Idx → EReal :=
  fun i => elem (fun k => x (ix3 (i 0) (i 1) k)) (fun k => W (ix2 (i 2) k)) (b (ix1 (i 2)))
    (fun j k => Wd (ix2 j k)) (fun j => Wu (ix2 (i 2) j)) (fun k => Wg (ix2 (i 2) k)) (fun k => Wr (ix2 (i 2) k))

end Cert.Spec

end
-- ==== Proof.KernelPayload.lean ====
/-
  The kernel body's arithmetic at one element of its output block.

  At a grid point the body holds a [1024, 1024] block `x` of input rows, the four weight matrices already transposed
  to (in, out) layout — base `wT`, gate `wgT`, residual `wrT`, each [1024, 1024], and the low-rank pair `wdT`
  [1024, 16], `wuT` [16, 1024] — and the bias as a [1, 1024] row.  It forms four products of `x` with the matrices on
  the matrix unit, into zero accumulators, a fifth product of the [1024, 16] down projection with `wuT`, the logistic
  of the gate product, and combines them as  (x·wT + bias) + σ(x·wgT)·((x·wdT)·wuT · 2) + x·wrT.

  Over the extended reals a matrix product into a zero accumulator is, at (p, q), the sum over the contracted
  coordinate k of left(p, k) · right(k, q); narrowing a float format is the identity; a same-shape shape cast is the
  identity.  So the block's element (p, q) is `Spec.elem` of row p of `x` and column q of each transposed matrix
  (`payload_apply`).
-/
import proofs.«106347_j12850542150462_1_alg».proof.Proof.Gen.KernelIdeal.Skeleton
import proofs.«106347_j12850542150462_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The operand indices of the three matrix products, axis by axis

Each product contracts the left operand's axis 1 with the right operand's axis 0; the left operand's axis 0 and the
right operand's axis 1 are the result's two axes. -/

theorem lhsSq_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsSq_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsSq_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsSq_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem lhsDn_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhsDn_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhsDn_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhsDn_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

theorem lhsUp_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhsUp_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhsUp_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhsUp_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-! ## Each product at an index -/

/-- A [1024,1024] × [1024,1024] product into a zero accumulator, at (p, q): the sum over k of left(p, k) · right(k, q). -/
theorem matmulSq_apply {φ₁ φ₂ : FTy} (l : FVec Ideal S1024x1024 φ₁) (r : FVec Ideal S1024x1024 φ₂) (p : Fin 1024) (q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhsSq_0 _ _
    | ⟨1, _⟩ => exact (lhsSq_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhsSq_0 _ _).trans hk
    | ⟨1, _⟩ => exact rhsSq_1 _ _)
  rw [el, er]

/-- The down projection [1024,1024] × [1024,16] at (p, j): the sum over k of left(p, k) · right(k, j). -/
theorem matmulDn_apply {φ₁ φ₂ : FTy} (l : FVec Ideal S1024x1024 φ₁) (r : FVec Ideal S1024x16 φ₂) (p : Fin 1024) (q : Fin 16) :
    matmul dot_S1024x1024_S1024x16_S1024x16_1_0_0_1_n_n none l r (constant S1024x16 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact lhsDn_0 _ _
    | ⟨1, _⟩ => exact (lhsDn_1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (rhsDn_0 _ _).trans hk
    | ⟨1, _⟩ => exact rhsDn_1 _ _)
  rw [el, er]

/-- The up projection [1024,16] × [16,1024] at (p, q): the sum over the 16 ranks j of left(p, j) · right(j, q). -/
theorem matmulUp_apply {φ₁ φ₂ : FTy} (l : FVec Ideal S1024x16 φ₁) (r : FVec Ideal S16x1024 φ₂) (p : Fin 1024) (q : Fin 1024) :
    matmul dot_S1024x16_S16x1024_S1024x1024_1_0_0_1_n_n none l r (constant S1024x1024 .f32 0x00000000#32) (ix2 p q)
      = ∑ k : Fin 16, l (ix2 p k) * r (ix2 k q) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k := funext fun a => Fin.ext (by
    match a with
    | ⟨0, _⟩ => exact lhsUp_0 _ _
    | ⟨1, _⟩ => exact (lhsUp_1 _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q := funext fun a => Fin.ext (by
    match a with
    | ⟨0, _⟩ => exact (rhsUp_0 _ _).trans hk
    | ⟨1, _⟩ => exact rhsUp_1 _ _)
  rw [el, er]

/-! ## The bias row broadcast down the block -/

/-- The [1, 1024] bias row broadcast to [1024, 1024] reads, at (p, q), the row's entry q. -/
theorem biasRow_apply (v : FVec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## The logistic, lane by lane -/

/-- The vector logistic at an index is the extended reals' logistic of the element. -/
theorem logistic_apply {s : Shape} {φ : FTy} (v : FVec Ideal s φ) (i : s.Idx) : logistic v i = Ideal.logistic (v i) := rfl

/-! ## The payload at an index -/

/-- THE BODY'S STORED VALUE at (p, q) of the block is `Spec.elem` of row p of the input block, column q of each
    transposed weight matrix, entry q of the bias row, and the 16 rows of the down projection. -/
theorem payload_apply (x : Vec Ideal S1024x1024 .f32) (wT : Vec Ideal S1024x1024 .bf16) (bias : Vec Ideal S1x1024 .f32)
    (wgT : Vec Ideal S1024x1024 .bf16) (wdT : Vec Ideal S1024x16 .bf16) (wuT : Vec Ideal S16x1024 .bf16)
    (wrT : Vec Ideal S1024x1024 .bf16) (p q : Fin 1024) :
    k0_pay1 x wT bias wgT wdT wuT wrT (ix2 p q)
      = Cert.Spec.elem (fun k => x (ix2 p k)) (fun k => wT (ix2 k q)) (bias (ix2 (0 : Fin 1) q))
          (fun j k => wdT (ix2 k j)) (fun j => wuT (ix2 j q)) (fun k => wgT (ix2 k q)) (fun k => wrT (ix2 k q)) := by
  unfold k0_pay1 Cert.Spec.elem
  simp only [shapeCast_self, addf_apply, mulf_apply, logistic_apply, matmulSq_apply, matmulUp_apply, biasRow_apply, truncf_apply,
    matmulDn_apply, broadcast_apply]
  rfl

end Cert.KernelIdeal.Hand

end
-- ==== Proof.KernelBlocks.lean ====
/-
  The kernel's result, from blocks to the whole array.

  The launch tiles the [32768, 1024] row-flattened input into 32 blocks of 1024 rows; grid point t stages rows
  1024·t … 1024·t + 1023 of it, every weight array whole, and writes block t of the [32768, 1024] output.  The weight
  arrays the region stages are made by the host lines before it: each (out, in) matrix transposed to (in, out) and
  narrowed to bf16 (the identity on extended reals), the bias reshaped to one row, the input reshaped from
  [4, 8192, 1024] to [32768, 1024] (row b·8192 + s is the old (b, s)).  The line after the region reshapes the output
  back to [4, 8192, 1024].
-/
import proofs.«106347_j12850542150462_1_alg».proof.Proof.Gen.KernelIdeal.Frame
import proofs.«106347_j12850542150462_1_alg».proof.Proof.KernelPayload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-! ## The block index of every window at every grid point

The input rows and the output move with the point along axis 0; every other window stays at block (0, 0). -/

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the region stages, as the host lines before it leave them -/

/-- The input, row-flattened. -/
theorem rows_eq (c : Dev nD) : (V m c main_v0 : S32768x1024.Idx → Elt Ideal .f32)
    = shapeCast S32768x1024 (m ((c : Thread nD τ).loc main_arg0)) shapeCasts_S4x8192x1024_S32768x1024 := by
  show StableHlo.after hostOps0 (fun b => m (c, b)) (Proc.devRef .tc main_v0) = _
  after_results
  rfl
/-- The base weights, transposed and narrowed. -/
theorem wT_eq (c : Dev nD) : (V m c main_v2 : S1024x1024.Idx → Elt Ideal .bf16)
    = truncf (F := Ideal) .bf16 (transpose S1024x1024 [1, 0] (m ((c : Thread nD τ).loc main_arg1)) transposes_S1024x1024_S1024x1024_1_0) bitsLt_bf16_f32 := by
  show StableHlo.after hostOps0 (fun b => m (c, b)) (Proc.devRef .tc main_v2) = _
  after_results
/-- The gate weights, transposed and narrowed. -/
theorem wgT_eq (c : Dev nD) : (V m c main_v4 : S1024x1024.Idx → Elt Ideal .bf16)
    = truncf (F := Ideal) .bf16 (transpose S1024x1024 [1, 0] (m ((c : Thread nD τ).loc main_arg5)) transposes_S1024x1024_S1024x1024_1_0) bitsLt_bf16_f32 := by
  show StableHlo.after hostOps0 (fun b => m (c, b)) (Proc.devRef .tc main_v4) = _
  after_results
/-- The residual weights, transposed and narrowed. -/
theorem wrT_eq (c : Dev nD) : (V m c main_v6 : S1024x1024.Idx → Elt Ideal .bf16)
    = truncf (F := Ideal) .bf16 (transpose S1024x1024 [1, 0] (m ((c : Thread nD τ).loc main_arg6)) transposes_S1024x1024_S1024x1024_1_0) bitsLt_bf16_f32 := by
  show StableHlo.after hostOps0 (fun b => m (c, b)) (Proc.devRef .tc main_v6) = _
  after_results
/-- The down projection, transposed to (in, 16) and narrowed. -/
theorem wdT_eq (c : Dev nD) : (V m c main_v8 : S1024x16.Idx → Elt Ideal .bf16)
    = truncf (F := Ideal) .bf16 (transpose S1024x16 [1, 0] (m ((c : Thread nD τ).loc main_arg3)) transposes_S16x1024_S1024x16_1_0) bitsLt_bf16_f32 := by
  show StableHlo.after hostOps0 (fun b => m (c, b)) (Proc.devRef .tc main_v8) = _
  after_results
/-- The up projection, transposed to (16, out) and narrowed. -/
theorem wuT_eq (c : Dev nD) : (V m c main_v10 : S16x1024.Idx → Elt Ideal .bf16)
    = truncf (F := Ideal) .bf16 (transpose S16x1024 [1, 0] (m ((c : Thread nD τ).loc main_arg4)) transposes_S1024x16_S16x1024_1_0) bitsLt_bf16_f32 := by
  show StableHlo.after hostOps0 (fun b => m (c, b)) (Proc.devRef .tc main_v10) = _
  after_results
/-- The bias as one row. -/
theorem biasRow_eq (c : Dev nD) : (V m c main_v11 : S1x1024.Idx → Elt Ideal .f32)
    = shapeCast S1x1024 (m ((c : Thread nD τ).loc main_arg2)) shapeCasts_S1024_S1x1024 := by
  show StableHlo.after hostOps0 (fun b => m (c, b)) (Proc.devRef .tc main_v11) = _
  after_results
  rfl

/-! ## Those arrays at an index, from the arguments -/

/-- Row b·8192 + s of the flattened input is position (b, s) of the input. -/
theorem rows_apply (c : Dev nD) (b : Fin 4) (s : Fin 8192) (k : Fin 1024) (r : Fin 32768) (hr : r.val = b.val * 8192 + s.val) :
    (V m c main_v0 : S32768x1024.Idx → Elt Ideal .f32) (ix2 r k) = (m ((c : Thread nD τ).loc main_arg0) : S4x8192x1024.Idx → Elt Ideal .f32) (ix3 b s k) := by
  rw [rows_eq]
  refine shapeCast_apply _ _ (ix2 r k) (ix3 b s k) ?_
  rw [Shape.rowMajor_val_three, Shape.rowMajor_val_two]
  show (b.val * 8192 + s.val) * 1024 + k.val = r.val * 1024 + k.val
  rw [hr]

/-- A transposed [1024, 1024] matrix at (k, o) is the matrix at (o, k). -/
theorem sqT_apply (A : S1024x1024.Idx → Elt Ideal .f32) (k o : Fin 1024) :
    (truncf (F := Ideal) .bf16 (transpose S1024x1024 [1, 0] A transposes_S1024x1024_S1024x1024_1_0) bitsLt_bf16_f32 : FVec Ideal S1024x1024 .bf16) (ix2 k o) = A (ix2 o k) := by
  rw [truncf_apply]
  exact transpose_apply [1, 0] A transposes_S1024x1024_S1024x1024_1_0 (ix2 k o) (ix2 o k) (fun b => match b with
    | ⟨0, _⟩ => rfl
    | ⟨1, _⟩ => rfl)
/-- The transposed down projection at (k, j) is the down projection at (j, k). -/
theorem dnT_apply (A : S16x1024.Idx → Elt Ideal .f32) (k : Fin 1024) (j : Fin 16) :
    (truncf (F := Ideal) .bf16 (transpose S1024x16 [1, 0] A transposes_S16x1024_S1024x16_1_0) bitsLt_bf16_f32 : FVec Ideal S1024x16 .bf16) (ix2 k j) = A (ix2 j k) := by
  rw [truncf_apply]
  exact transpose_apply [1, 0] A transposes_S16x1024_S1024x16_1_0 (ix2 k j) (ix2 j k) (fun b => match b with
    | ⟨0, _⟩ => rfl
    | ⟨1, _⟩ => rfl)
/-- The transposed up projection at (j, o) is the up projection at (o, j). -/
theorem upT_apply (A : S1024x16.Idx → Elt Ideal .f32) (j : Fin 16) (o : Fin 1024) :
    (truncf (F := Ideal) .bf16 (transpose S16x1024 [1, 0] A transposes_S1024x16_S16x1024_1_0) bitsLt_bf16_f32 : FVec Ideal S16x1024 .bf16) (ix2 j o) = A (ix2 o j) := by
  rw [truncf_apply]
  exact transpose_apply [1, 0] A transposes_S1024x16_S16x1024_1_0 (ix2 j o) (ix2 o j) (fun b => match b with
    | ⟨0, _⟩ => rfl
    | ⟨1, _⟩ => rfl)
/-- The bias row at (0, o) is the bias at o. -/
theorem biasRow_at (A : S1024.Idx → Elt Ideal .f32) (o : Fin 1024) :
    shapeCast S1x1024 A shapeCasts_S1024_S1x1024 (ix2 (0 : Fin 1) o) = A (ix1 o) := by
  refine shapeCast_apply _ _ (ix2 (0 : Fin 1) o) (ix1 o) ?_
  rw [Shape.rowMajor_val_one, Shape.rowMajor_val_two]
  show o.val = 0 * 1024 + o.val
  omega

/-! ## Each window's block at a point, read off its array -/

/-- The input block at point t is rows 1024·t … 1024·t + 1023 of the flattened input. -/
theorem xblk_apply (c : Dev nD) (t : Fin cfg0.N) (p k : Fin 1024) (r : Fin 32768) (hr : r.val = t.val * 1024 + p.val) :
    (iblk m c 0 t : Vec Ideal S1024x1024 .f32) (ix2 p k) = (V m c main_v0 : S32768x1024.Idx → Elt Ideal .f32) (ix2 r k) := by
  have hi := block_indices t
  unfold iblk
  rw [View.read_apply]
  show V m c main_v0 (((cfg0.win 0).blk t).view.emb (ix2 p k)) = V m c main_v0 (ix2 r k)
  refine congrArg (V m c main_v0) (funext fun d => Fin.ext ?_)
  match d with
  | ⟨0, _⟩ => show win0_0.index t (0 : Fin 2) * 1024 + 1 * p.val = r.val; omega
  | ⟨1, _⟩ => show win0_0.index t (1 : Fin 2) * 1024 + 1 * k.val = k.val; omega
/-- The base-weight window's one block is its whole array. -/
theorem wTblk_apply (c : Dev nD) (t : Fin cfg0.N) (a : Fin 1024) (b : Fin 1024) :
    (iblk m c 1 t : Vec Ideal S1024x1024 .bf16) (ix2 a b) = (V m c main_v2 : S1024x1024.Idx → Elt Ideal .bf16) (ix2 a b) := by
  have hi := block_indices t
  unfold iblk
  rw [View.read_apply]
  show V m c main_v2 (((cfg0.win 1).blk t).view.emb (ix2 a b)) = V m c main_v2 (ix2 a b)
  refine congrArg (V m c main_v2) (funext fun d => Fin.ext ?_)
  match d with
  | ⟨0, _⟩ => show win0_1.index t (0 : Fin 2) * 1024 + 1 * a.val = a.val; omega
  | ⟨1, _⟩ => show win0_1.index t (1 : Fin 2) * 1024 + 1 * b.val = b.val; omega
/-- The bias window's one block is its whole row. -/
theorem biasblk_apply (c : Dev nD) (t : Fin cfg0.N) (a : Fin 1) (b : Fin 1024) :
    (iblk m c 2 t : Vec Ideal S1x1024 .f32) (ix2 a b) = (V m c main_v11 : S1x1024.Idx → Elt Ideal .f32) (ix2 a b) := by
  have hi := block_indices t
  unfold iblk
  rw [View.read_apply]
  show V m c main_v11 (((cfg0.win 2).blk t).view.emb (ix2 a b)) = V m c main_v11 (ix2 a b)
  refine congrArg (V m c main_v11) (funext fun d => Fin.ext ?_)
  match d with
  | ⟨0, _⟩ => show win0_2.index t (0 : Fin 2) * 1 + 1 * a.val = a.val; omega
  | ⟨1, _⟩ => show win0_2.index t (1 : Fin 2) * 1024 + 1 * b.val = b.val; omega
/-- The down-projection window's one block is its whole array. -/
theorem wdTblk_apply (c : Dev nD) (t : Fin cfg0.N) (a : Fin 1024) (b : Fin 16) :
    (iblk m c 3 t : Vec Ideal S1024x16 .bf16) (ix2 a b) = (V m c main_v8 : S1024x16.Idx → Elt Ideal .bf16) (ix2 a b) := by
  have hi := block_indices t
  unfold iblk
  rw [View.read_apply]
  show V m c main_v8 (((cfg0.win 3).blk t).view.emb (ix2 a b)) = V m c main_v8 (ix2 a b)
  refine congrArg (V m c main_v8) (funext fun d => Fin.ext ?_)
  match d with
  | ⟨0, _⟩ => show win0_3.index t (0 : Fin 2) * 1024 + 1 * a.val = a.val; omega
  | ⟨1, _⟩ => show win0_3.index t (1 : Fin 2) * 16 + 1 * b.val = b.val; omega
/-- The up-projection window's one block is its whole array. -/
theorem wuTblk_apply (c : Dev nD) (t : Fin cfg0.N) (a : Fin 16) (b : Fin 1024) :
    (iblk m c 4 t : Vec Ideal S16x1024 .bf16) (ix2 a b) = (V m c main_v10 : S16x1024.Idx → Elt Ideal .bf16) (ix2 a b) := by
  have hi := block_indices t
  unfold iblk
  rw [View.read_apply]
  show V m c main_v10 (((cfg0.win 4).blk t).view.emb (ix2 a b)) = V m c main_v10 (ix2 a b)
  refine congrArg (V m c main_v10) (funext fun d => Fin.ext ?_)
  match d with
  | ⟨0, _⟩ => show win0_4.index t (0 : Fin 2) * 16 + 1 * a.val = a.val; omega
  | ⟨1, _⟩ => show win0_4.index t (1 : Fin 2) * 1024 + 1 * b.val = b.val; omega
/-- The gate-weight window's one block is its whole array. -/
theorem wgTblk_apply (c : Dev nD) (t : Fin cfg0.N) (a : Fin 1024) (b : Fin 1024) :
    (iblk m c 5 t : Vec Ideal S1024x1024 .bf16) (ix2 a b) = (V m c main_v4 : S1024x1024.Idx → Elt Ideal .bf16) (ix2 a b) := by
  have hi := block_indices t
  unfold iblk
  rw [View.read_apply]
  show V m c main_v4 (((cfg0.win 5).blk t).view.emb (ix2 a b)) = V m c main_v4 (ix2 a b)
  refine congrArg (V m c main_v4) (funext fun d => Fin.ext ?_)
  match d with
  | ⟨0, _⟩ => show win0_5.index t (0 : Fin 2) * 1024 + 1 * a.val = a.val; omega
  | ⟨1, _⟩ => show win0_5.index t (1 : Fin 2) * 1024 + 1 * b.val = b.val; omega
/-- The residual-weight window's one block is its whole array. -/
theorem wrTblk_apply (c : Dev nD) (t : Fin cfg0.N) (a : Fin 1024) (b : Fin 1024) :
    (iblk m c 6 t : Vec Ideal S1024x1024 .bf16) (ix2 a b) = (V m c main_v6 : S1024x1024.Idx → Elt Ideal .bf16) (ix2 a b) := by
  have hi := block_indices t
  unfold iblk
  rw [View.read_apply]
  show V m c main_v6 (((cfg0.win 6).blk t).view.emb (ix2 a b)) = V m c main_v6 (ix2 a b)
  refine congrArg (V m c main_v6) (funext fun d => Fin.ext ?_)
  match d with
  | ⟨0, _⟩ => show win0_6.index t (0 : Fin 2) * 1024 + 1 * a.val = a.val; omega
  | ⟨1, _⟩ => show win0_6.index t (1 : Fin 2) * 1024 + 1 * b.val = b.val; omega

/-! ## The flattened result as one function of the staged arrays -/

/-- Row r, feature o of the flattened result: `Spec.elem` of row r of the flattened input and column o of each
    transposed weight array. -/
def rowsFn (X : S32768x1024.Idx → EReal) (WT : S1024x1024.Idx → EReal) (B : S1x1024.Idx → EReal) (WdT : S1024x16.Idx → EReal)
    (WuT : S16x1024.Idx → EReal) (WgT WrT : S1024x1024.Idx → EReal) : S32768x1024.Idx → EReal :=
  fun i => Cert.Spec.elem (fun k => X (ix2 (i 0) k)) (fun k => WT (ix2 k (i 1))) (B (ix2 (0 : Fin 1) (i 1)))
    (fun j k => WdT (ix2 k j)) (fun j => WuT (ix2 j (i 1))) (fun k => WgT (ix2 k (i 1))) (fun k => WrT (ix2 k (i 1)))

/-- That function at the arrays as the region finds them. -/
abbrev rowsOut (c : Dev nD) : Buf (Elt Ideal) ((c : Thread nD τ).loc main_v12) :=
  rowsFn (V m c main_v0) (V m c main_v2) (V m c main_v11) (V m c main_v8) (V m c main_v10) (V m c main_v4) (V m c main_v6)

/-- The body's stored value at y of a block is `rowsFn` at the array index i, whenever the blocks are the arrays read
    where i says: the input block's row (y 0) is the array's row (i 0), and column (y 1) of each weight block is
    column (i 1) of its array. -/
theorem block_elem (x : Vec Ideal S1024x1024 .f32) (wT : Vec Ideal S1024x1024 .bf16) (bias : Vec Ideal S1x1024 .f32)
    (wgT : Vec Ideal S1024x1024 .bf16) (wdT : Vec Ideal S1024x16 .bf16) (wuT : Vec Ideal S16x1024 .bf16) (wrT : Vec Ideal S1024x1024 .bf16)
    (X : S32768x1024.Idx → EReal) (WT : S1024x1024.Idx → EReal) (B : S1x1024.Idx → EReal) (WdT : S1024x16.Idx → EReal)
    (WuT : S16x1024.Idx → EReal) (WgT WrT : S1024x1024.Idx → EReal) (y : S1024x1024.Idx) (i : S32768x1024.Idx)
    (hx : ∀ k, x (ix2 (y 0) k) = X (ix2 (i 0) k)) (hw : ∀ k, wT (ix2 k (y 1)) = WT (ix2 k (i 1)))
    (hb : bias (ix2 (0 : Fin 1) (y 1)) = B (ix2 (0 : Fin 1) (i 1))) (hd : ∀ j k, wdT (ix2 k j) = WdT (ix2 k j))
    (hu : ∀ j, wuT (ix2 j (y 1)) = WuT (ix2 j (i 1))) (hg : ∀ k, wgT (ix2 k (y 1)) = WgT (ix2 k (i 1)))
    (hr : ∀ k, wrT (ix2 k (y 1)) = WrT (ix2 k (i 1))) :
    k0_pay1 x wT bias wgT wdT wuT wrT y = rowsFn X WT B WdT WuT WgT WrT i := by
  refine (congrArg (k0_pay1 x wT bias wgT wdT wuT wrT) (eq_ix2 y)).trans ((payload_apply x wT bias wgT wdT wuT wrT (y 0) (y 1)).trans ?_)
  unfold rowsFn
  simp only [hx, hw, hb, hd, hu, hg, hr]

/-! ## What a point writes back -/

/-- Point t writes back block t of `rowsOut`. -/
theorem flushed_eq (c : Dev nD) (t : Fin cfg0.N) :
    (dats m 0 c).flushed 7 t = ((cfg0.win 7).blk t).view.read (Elt Ideal) (rowsOut m c) := by
  show (cfg0.win 7).cut (grid0.coords t) ((dats m 0 c).after 7 t) = _
  rw [after0_7]
  unfold out0_7
  rw [View.canon_unit_zero offsets_zero]
  simp only [View.ld_unit_zero (S := S1024x1024) offsets_zero, View.ld_unit_zero (S := S1x1024) offsets_zero,
    View.ld_unit_zero (S := S1024x16) offsets_zero, View.ld_unit_zero (S := S16x1024) offsets_zero]
  have hi := block_indices t
  funext j
  rw [View.read_apply]
  show k0_pay1 (iblk m c 0 t) (iblk m c 1 t) (iblk m c 2 t) (iblk m c 5 t) (iblk m c 3 t) (iblk m c 4 t) (iblk m c 6 t) j
    = rowsOut m c (((cfg0.win 7).blk t).view.emb j)
  have h0 : ((((cfg0.win 7).blk t).view.emb j) 0).val = t.val * 1024 + (j 0).val := by
    show win0_7.index t (0 : Fin 2) * 1024 + 1 * (j 0).val = _; omega
  have e1 : (((cfg0.win 7).blk t).view.emb j) 1 = j 1 := Fin.ext (by
    show win0_7.index t (1 : Fin 2) * 1024 + 1 * (j 1).val = _; omega)
  refine block_elem (iblk m c 0 t) (iblk m c 1 t) (iblk m c 2 t) (iblk m c 5 t) (iblk m c 3 t) (iblk m c 4 t) (iblk m c 6 t)
    (V m c main_v0) (V m c main_v2) (V m c main_v11) (V m c main_v8) (V m c main_v10) (V m c main_v4) (V m c main_v6)
    j (((cfg0.win 7).blk t).view.emb j) ?_ ?_ ?_ ?_ ?_ ?_ ?_
  · exact fun k => xblk_apply m c t (j 0) k _ h0
  · intro k; rw [e1]; exact wTblk_apply m c t k (j 1)
  · rw [e1]; exact biasblk_apply m c t 0 (j 1)
  · exact fun jj k => wdTblk_apply m c t k jj
  · intro jj; rw [e1]; exact wuTblk_apply m c t jj (j 1)
  · intro k; rw [e1]; exact wgTblk_apply m c t k (j 1)
  · intro k; rw [e1]; exact wrTblk_apply m c t k (j 1)

/-! ## The output's blocks tile the flattened result -/

/-- An index of the flattened result is in point t's block iff each coordinate is in the block's range on its axis. -/
theorem mem_outblk (t : Fin cfg0.N) (i : S32768x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v12).slice (win0_7.rect t)).set ↔ _
  rw [View.set_slice_whole, Rect.mem_set_unit]
  exact Iff.rfl

/-- Row r lies in the block of point r / 1024, so the 32 blocks cover the array and it ends holding `rowsOut`. -/
theorem final_rows (c : Dev nD) : (dats m 0 c).arrAt 7 cfg0.N = rowsOut m c :=
  (dats m 0 c).arrAt_eq_of_cover 7 (rowsOut m c) (fun t _ => flushed_eq m c t) fun i => by
    have hN : cfg0.N = 32 := N_0
    have hi0 : (i 0).val < 32768 := (i 0).isLt
    have hi1 : (i 1).val < 1024 := (i 1).isLt
    have ht : (i 0).val / 1024 < cfg0.N := by rw [hN]; omega
    obtain ⟨-, -, -, -, -, -, -, -, -, -, -, -, -, -, e0, e1⟩ := block_indices ⟨(i 0).val / 1024, ht⟩
    have e0' : win0_7.index ⟨(i 0).val / 1024, ht⟩ (0 : Fin 2) = (i 0).val / 1024 := e0
    refine ⟨⟨(i 0).val / 1024, ht⟩, flush0_7 _, ?_⟩
    rw [mem_outblk]
    intro a
    match a with
    | ⟨0, _⟩ =>
      show win0_7.index ⟨(i 0).val / 1024, ht⟩ (0 : Fin 2) * 1024 ≤ (i 0).val
        ∧ (i 0).val < win0_7.index ⟨(i 0).val / 1024, ht⟩ (0 : Fin 2) * 1024 + 1024
      omega
    | ⟨1, _⟩ =>
      show win0_7.index ⟨(i 0).val / 1024, ht⟩ (1 : Fin 2) * 1024 ≤ (i 1).val
        ∧ (i 1).val < win0_7.index ⟨(i 0).val / 1024, ht⟩ (1 : Fin 2) * 1024 + 1024
      omega

/-! ## The line after the region -/

/-- The program's result is the flattened result reshaped to [4, 8192, 1024]. -/
theorem tail_eq (c : Dev nD) : Pipeline.afterTail₀ cfgs (dats m) 0 (V0 m) [hostOps1] c main_v13
    = shapeCast S4x8192x1024 ((dats m 0 c).arrAt 7 cfg0.N) shapeCasts_S32768x1024_S4x8192x1024 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = (dats m 0 c).arrAt 7 cfg0.N := Pipeline.withArrays_arr spec0 launch0.win.arr_inj c _ _ 7
  exact congrArg (fun A : S32768x1024.Idx → Elt Ideal .f32 => shapeCast S4x8192x1024 A shapeCasts_S32768x1024_S4x8192x1024) hw

/-! ## The result, from the arguments -/

/-- The flattened result reshaped to [4, 8192, 1024] is `Spec.layer` of the seven arguments: position (b, s) is row
    b·8192 + s, whose input row is the input at (b, s, ·), and column o of a transposed weight array is row o of the
    weight matrix. -/
theorem result_eq (c : Dev nD) :
    shapeCast S4x8192x1024 (rowsOut m c) shapeCasts_S32768x1024_S4x8192x1024
      = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, s, o, rfl⟩ : ∃ (b : Fin 4) (s : Fin 8192) (o : Fin 1024), i = ix3 b s o := ⟨i 0, i 1, i 2, eq_ix3 i⟩
  have hlt : b.val * 8192 + s.val < 32768 := by have := b.isLt; have := s.isLt; omega
  rw [shapeCast_apply (rowsOut m c) shapeCasts_S32768x1024_S4x8192x1024 (ix3 b s o) (ix2 ⟨b.val * 8192 + s.val, hlt⟩ o)
    (by
      show (S32768x1024.rowMajor (ix2 (⟨b.val * 8192 + s.val, hlt⟩ : Fin 32768) o)).val = (S4x8192x1024.rowMajor (ix3 b s o)).val
      rw [Shape.rowMajor_val_two, Shape.rowMajor_val_three]; rfl)]
  have hx : (fun k : Fin 1024 => (V m c main_v0 : S32768x1024.Idx → EReal) (ix2 ⟨b.val * 8192 + s.val, hlt⟩ k))
      = fun k => ((m ((c : Thread nD τ).loc main_arg0)) : S4x8192x1024.Idx → EReal) (ix3 b s k) :=
    funext fun k => rows_apply m c b s k ⟨b.val * 8192 + s.val, hlt⟩ rfl
  have hw : (fun k : Fin 1024 => (V m c main_v2 : S1024x1024.Idx → EReal) (ix2 k o))
      = fun k => ((m ((c : Thread nD τ).loc main_arg1)) : S1024x1024.Idx → EReal) (ix2 o k) :=
    funext fun k => by rw [wT_eq]; exact sqT_apply _ k o
  have hb : (V m c main_v11 : S1x1024.Idx → EReal) (ix2 (0 : Fin 1) o) = ((m ((c : Thread nD τ).loc main_arg2)) : S1024.Idx → EReal) (ix1 o) := by
    rw [biasRow_eq]; exact biasRow_at _ o
  have hd : (fun (j : Fin 16) (k : Fin 1024) => (V m c main_v8 : S1024x16.Idx → EReal) (ix2 k j))
      = fun j k => ((m ((c : Thread nD τ).loc main_arg3)) : S16x1024.Idx → EReal) (ix2 j k) :=
    funext fun j => funext fun k => by rw [wdT_eq]; exact dnT_apply _ k j
  have hu : (fun j : Fin 16 => (V m c main_v10 : S16x1024.Idx → EReal) (ix2 j o))
      = fun j => ((m ((c : Thread nD τ).loc main_arg4)) : S1024x16.Idx → EReal) (ix2 o j) :=
    funext fun j => by rw [wuT_eq]; exact upT_apply _ j o
  have hg : (fun k : Fin 1024 => (V m c main_v4 : S1024x1024.Idx → EReal) (ix2 k o))
      = fun k => ((m ((c : Thread nD τ).loc main_arg5)) : S1024x1024.Idx → EReal) (ix2 o k) :=
    funext fun k => by rw [wgT_eq]; exact sqT_apply _ k o
  have hr : (fun k : Fin 1024 => (V m c main_v6 : S1024x1024.Idx → EReal) (ix2 k o))
      = fun k => ((m ((c : Thread nD τ).loc main_arg6)) : S1024x1024.Idx → EReal) (ix2 o k) :=
    funext fun k => by rw [wrT_eq]; exact sqT_apply _ k o
  show Cert.Spec.elem (fun k : Fin 1024 => (V m c main_v0 : S32768x1024.Idx → EReal) (ix2 ⟨b.val * 8192 + s.val, hlt⟩ k))
      (fun k : Fin 1024 => (V m c main_v2 : S1024x1024.Idx → EReal) (ix2 k o))
      ((V m c main_v11 : S1x1024.Idx → EReal) (ix2 (0 : Fin 1) o))
      (fun (j : Fin 16) (k : Fin 1024) => (V m c main_v8 : S1024x16.Idx → EReal) (ix2 k j))
      (fun j : Fin 16 => (V m c main_v10 : S16x1024.Idx → EReal) (ix2 j o))
      (fun k : Fin 1024 => (V m c main_v4 : S1024x1024.Idx → EReal) (ix2 k o))
      (fun k : Fin 1024 => (V m c main_v6 : S1024x1024.Idx → EReal) (ix2 k o))
    = Cert.Spec.elem (fun k => ((m ((c : Thread nD τ).loc main_arg0)) : S4x8192x1024.Idx → EReal) (ix3 b s k))
      (fun k => ((m ((c : Thread nD τ).loc main_arg1)) : S1024x1024.Idx → EReal) (ix2 o k)) (((m ((c : Thread nD τ).loc main_arg2)) : S1024.Idx → EReal) (ix1 o))
      (fun j k => ((m ((c : Thread nD τ).loc main_arg3)) : S16x1024.Idx → EReal) (ix2 j k)) (fun j => ((m ((c : Thread nD τ).loc main_arg4)) : S1024x16.Idx → EReal) (ix2 o j))
      (fun k => ((m ((c : Thread nD τ).loc main_arg5)) : S1024x1024.Idx → EReal) (ix2 o k)) (fun k => ((m ((c : Thread nD τ).loc main_arg6)) : S1024x1024.Idx → EReal) (ix2 o k))
  rw [hx, hw, hb, hd, hu, hg, hr]

/-! ## The run, read -/

/-- Every weakly fair execution of the kernel's program terminates with the result array at `Spec.layer` of the
    arguments and the arguments unchanged. -/
theorem run : θ_run defs (onTc (τ := τ) (main (F := Ideal))) ⟨m, fun _ => 0, ρ⟩ fun r => ∀ c : Dev nD,
      r.2.mem ((c.tc : Thread nD τ).loc main_v13)
        = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v13 (Pipeline.mem_restRefs_of main_v13 (by decide) (by decide))).trans
        ((tail_eq m c).trans (by rw [final_rows]; exact result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  The reference program computes `Spec.layer`.

  The reference is five `dot_general`s contracting the feature axis of the [4, 8192, 1024] input against axis 1 of each
  (out, in) weight matrix (and the [4, 8192, 16] down projection against axis 1 of the (out, 16) up matrix), a bias
  broadcast along the last axis, the logistic written out as 1 / (1 + exp(-z)), a multiplication by 2, and the same
  three additions in the same order as the kernel.  Read one operation at a time at an index (b, s, o), every dot
  product is the sum over the contracted coordinate of input(b, s, k) · weight(o, k), which is `Spec.elem` at that
  index term by term; the written-out logistic is the extended reals' logistic by definition once the word of 1.0 is
  read as the number 1.
-/
import proofs.«106347_j12850542150462_1_alg».proof.Proof.Gen.ReferenceIdeal.Read
import proofs.«106347_j12850542150462_1_alg».proof.Proof.Spec
import Idealize.ShloMosaic.PureOps.IdealRules

noncomputable section

open scoped BigOperators

namespace Cert.ReferenceIdeal.RefValue

open Cert.ReferenceIdeal Cert.ReferenceIdeal.Gen Cert.ReferenceIdeal.Read Idealize.ShloMosaic Idealize.ShloMosaic.ValueIdx

/-- The word of 1.0 denotes the number 1. -/
theorem one_word : Ideal.ofBits .f32 0x3F800000#32 = 1 := IdealRules.sign_bit.ideal_onePat .f32

/-! ## The operand indices the stage lemmas name, as coordinates

At result index (b, s, o) and contracted coordinate k every product reads the input at (b, s, k) and its weight matrix
at (o, k); the up projection reads the down projection at (b, s, j) and the up matrix at (o, j); the bias is read at o. -/

theorem x_idx_main (i : S4x8192x1024.Idx) (k : Fin 1024) : lidx_main_v0 i k = ix3 (i 0) (i 1) k :=
  funext fun a => Fin.ext (by match a with | ⟨0, _⟩ => rfl | ⟨1, _⟩ => rfl | ⟨2, _⟩ => rfl)
theorem w_idx_main (i : S4x8192x1024.Idx) (k : Fin 1024) : ridx_main_v0 i k = ix2 (i 2) k :=
  funext fun a => Fin.ext (by match a with | ⟨0, _⟩ => rfl | ⟨1, _⟩ => rfl)
theorem x_idx_gate (i : S4x8192x1024.Idx) (k : Fin 1024) : lidx_main_v8 i k = ix3 (i 0) (i 1) k :=
  funext fun a => Fin.ext (by match a with | ⟨0, _⟩ => rfl | ⟨1, _⟩ => rfl | ⟨2, _⟩ => rfl)
theorem w_idx_gate (i : S4x8192x1024.Idx) (k : Fin 1024) : ridx_main_v8 i k = ix2 (i 2) k :=
  funext fun a => Fin.ext (by match a with | ⟨0, _⟩ => rfl | ⟨1, _⟩ => rfl)
theorem x_idx_res (i : S4x8192x1024.Idx) (k : Fin 1024) : lidx_main_v15 i k = ix3 (i 0) (i 1) k :=
  funext fun a => Fin.ext (by match a with | ⟨0, _⟩ => rfl | ⟨1, _⟩ => rfl | ⟨2, _⟩ => rfl)
theorem w_idx_res (i : S4x8192x1024.Idx) (k : Fin 1024) : ridx_main_v15 i k = ix2 (i 2) k :=
  funext fun a => Fin.ext (by match a with | ⟨0, _⟩ => rfl | ⟨1, _⟩ => rfl)
theorem x_idx_down (i : S4x8192x1024.Idx) (j : Fin 16) (k : Fin 1024) : lidx_main_v4 (lidx_main_v5 i j) k = ix3 (i 0) (i 1) k :=
  funext fun a => Fin.ext (by match a with | ⟨0, _⟩ => rfl | ⟨1, _⟩ => rfl | ⟨2, _⟩ => rfl)
theorem w_idx_down (i : S4x8192x1024.Idx) (j : Fin 16) (k : Fin 1024) : ridx_main_v4 (lidx_main_v5 i j) k = ix2 j k :=
  funext fun a => Fin.ext (by match a with | ⟨0, _⟩ => rfl | ⟨1, _⟩ => rfl)
theorem w_idx_up (i : S4x8192x1024.Idx) (j : Fin 16) : ridx_main_v5 i j = ix2 (i 2) j :=
  funext fun a => Fin.ext (by match a with | ⟨0, _⟩ => rfl | ⟨1, _⟩ => rfl)
theorem b_idx (i : S4x8192x1024.Idx) : idx_main_v1 (idx_main_v2 i) = ix1 (i 2) :=
  funext fun a => Fin.ext (by match a with | ⟨0, _⟩ => rfl)

/-! ## The reference is the specification -/

/-- The reference's last stage, as a function of its seven arguments, is `Spec.layer` of them. -/
theorem ref_eq_layer (x : (⟨S4x8192x1024, .f32⟩ : BufTy).Contents (Elt Ideal)) (W : (⟨S1024x1024, .f32⟩ : BufTy).Contents (Elt Ideal))
    (b : (⟨S1024, .f32⟩ : BufTy).Contents (Elt Ideal)) (Wd : (⟨S16x1024, .f32⟩ : BufTy).Contents (Elt Ideal))
    (Wu : (⟨S1024x16, .f32⟩ : BufTy).Contents (Elt Ideal)) (Wg Wr : (⟨S1024x1024, .f32⟩ : BufTy).Contents (Elt Ideal)) :
    val_main_v18 (F := Ideal) x W b Wd Wu Wg Wr = Cert.Spec.layer x W b Wd Wu Wg Wr := by
  funext i
  rw [val_main_v18_apply, val_main_v17_apply, val_main_v3_apply, val_main_v0_apply, val_main_v2_apply, val_main_v1_apply,
    val_main_v16_apply, val_main_v14_apply, val_main_v13_apply, val_main_cst_1_apply, val_main_v12_apply, val_main_v11_apply,
    val_main_cst_0_apply, val_main_v10_apply, val_main_v9_apply, val_main_v8_apply, val_main_v7_apply, val_main_v5_apply,
    val_main_v6_apply, val_main_cst_apply, val_main_v15_apply]
  simp only [val_main_v4_apply]
  rw [b_idx]
  simp only [x_idx_main, w_idx_main, x_idx_gate, w_idx_gate, x_idx_res, w_idx_res, x_idx_down, w_idx_down, w_idx_up]
  unfold Cert.Spec.layer Cert.Spec.elem Ideal.logistic
  simp only [Ideal.addf_def, Ideal.mulf_def, Ideal.hostDivf_def, Ideal.ofBits_def, Ideal.hostUnary_exp_def, Ideal.hostNegf_def,
    Ideal.negf_def, one_word]
  rfl

end Cert.ReferenceIdeal.RefValue

end
-- ==== Proof.lean ====
/-
  A fused linear layer with a gated low-rank correction and a residual projection, against its einsum reference.

  Both programs compute, for every batch b, position s and output feature o of a [4, 8192, 1024] input x,

      (x[b,s,·]·W[o,·] + bias[o])  +  σ(x[b,s,·]·W_gate[o,·]) · ((Σ_j (x[b,s,·]·W_down[j,·]) · W_up[o,j]) · 2)
        +  x[b,s,·]·W_res[o,·]

  (`Cert.Spec.layer`), σ the logistic function.  The kernel flattens (b, s) to 32768 rows, transposes each weight
  matrix once on the host, and computes 1024 rows per grid point with five matrix products into zero accumulators;
  the reference contracts the untransposed matrices directly and spells the logistic as 1 / (1 + exp(-z)).  Over the
  extended reals these are the same sums in the same order, the same three additions in the same order, and the same
  logistic, so the two results agree term by term; no law that needs finite inputs is used.

  The kernel's frames are the generated ones; the reference's frame is its generated run with the result dropped; the
  idealization rewrote nothing, so `preserves` is trivial.
-/
import proofs.«106347_j12850542150462_1_alg».proof.Defs
import proofs.«106347_j12850542150462_1_alg».proof.Proof.Gen.Kernel
import proofs.«106347_j12850542150462_1_alg».proof.Proof.Gen.Kernel.Skeleton
import proofs.«106347_j12850542150462_1_alg».proof.Proof.Gen.Kernel.Launch
import proofs.«106347_j12850542150462_1_alg».proof.Proof.Gen.Kernel.Points
import proofs.«106347_j12850542150462_1_alg».proof.Proof.Gen.Kernel.Frame
import proofs.«106347_j12850542150462_1_alg».proof.Proof.Gen.KernelIdeal
import proofs.«106347_j12850542150462_1_alg».proof.Proof.Gen.KernelIdeal.Skeleton
import proofs.«106347_j12850542150462_1_alg».proof.Proof.Gen.KernelIdeal.Launch
import proofs.«106347_j12850542150462_1_alg».proof.Proof.Gen.KernelIdeal.Points
import proofs.«106347_j12850542150462_1_alg».proof.Proof.Gen.KernelIdeal.Frame
import proofs.«106347_j12850542150462_1_alg».proof.Proof.Gen.ReferenceIdeal
import proofs.«106347_j12850542150462_1_alg».proof.Proof.Gen.ReferenceIdeal.Run
import proofs.«106347_j12850542150462_1_alg».proof.Proof.Gen.ReferenceIdeal.Read
import proofs.«106347_j12850542150462_1_alg».proof.Proof.Gen.Pre_finite_inputs
import proofs.«106347_j12850542150462_1_alg».proof.Proof.KernelBlocks
import proofs.«106347_j12850542150462_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the result array at `Spec.layer` of
    those arguments: the kernel by its blocks, the reference operation by operation. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_layer]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
